-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Mm1.lean ====
/-
  The first layer's linear transform. The kernel region multiplies the node features, 2000 rows at a time, by the
  whole weight matrix: grid point t loads rows 2000·t … 2000·t + 1999 of the 50000 × 128 array and the whole 128 × 256
  array, and stores their product into rows 2000·t … 2000·t + 1999 of the 50000 × 256 result. Over the extended reals
  the narrowing of both operands to bf16 is the identity and the product into a zero accumulator is the plain sum
  ∑ₖ a(r, k) · w(k, j); a row of the result depends on that one row of the left operand only, so the 25 row blocks
  together are the product of the whole arrays, entry by entry: `final`.
  Stated at a parameter `V`, the buffer contents the region is entered from.
-/
import proofs.«173708_j16329465660164_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mm1

open Idealize.ShloMosaic Idealize.ShloMosaic.TcCoe Idealize.SL.Sem Idealize.ShloMosaic.ValueIdx
open Idealize.ShloMosaic.Pipeline (Dat)
open Cert.KernelIdeal Cert.KernelIdeal.Gen

/-- The product of a 50000 × 128 array by a 128 × 256 array over the extended reals: entry (r, j) is ∑ₖ a(r, k) · w(k, j). -/
def prod (a : (⟨S50000x128, .f32⟩ : BufTy).Contents (Elt Ideal)) (w : (⟨S128x256, .f32⟩ : BufTy).Contents (Elt Ideal)) :
    (⟨S50000x256, .f32⟩ : BufTy).Contents (Elt Ideal) :=
  fun i => ∑ k : Fin 128, a (ix2 (⟨(i 0).val, idx2_lt0 i⟩ : Fin 50000) k) * w (ix2 k (⟨(i 1).val, idx2_lt1 i⟩ : Fin 256))

theorem hz : (![0, 0] : Fin 2 → Nat) = fun _ => 0 := funext fun a => by fin_cases a <;> rfl

/-! ## One block's product at an entry -/

/-- The left operand's index for result entry `i` and contraction index `q`: row `i 0`, column `q`. -/
theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's: row `q`, column `i 1`. -/
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- What the body stores, at entry (p, q) of the block: ∑ₖ x0(p, k) · x1(k, q). The narrowing to bf16 is the identity
    over the extended reals and the accumulator is zero. -/
theorem pay_apply (x0 : Vec Ideal S2000x128 .f32) (x1 : Vec Ideal S128x256 .f32) (p : Fin 2000) (q : Fin 256) :
    k0_pay1 (F := Ideal) x0 x1 (ix2 p q) = ∑ k : Fin 128, x0 (ix2 p k) * x1 (ix2 k q) := by
  unfold k0_pay1
  show FloatOps.matmul (F := Ideal) dot_S2000x128_S128x256_S2000x256_1_0_0_1_n_n none (truncf (F := Ideal) .bf16 (x0 : FVec Ideal S2000x128 .f32) bitsLt_bf16_f32) (truncf (F := Ideal) .bf16 (x1 : FVec Ideal S128x256 .f32) bitsLt_bf16_f32) (constant (F := Ideal) S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-! ## The blocks as rows of the arrays -/

variable (V : (c : Dev nD) → (b : Ref sig .tc) → Buf (Elt Ideal) ((c : Thread nD τ).loc b))

/-- The node-feature array and the weight array as the region finds them, at their literal types. -/
abbrev xarr (c : Dev nD) : (⟨S50000x128, .f32⟩ : BufTy).Contents (Elt Ideal) := V c main_arg0
abbrev warr (c : Dev nD) : (⟨S128x256, .f32⟩ : BufTy).Contents (Elt Ideal) := V c main_arg2

/-- The printed index maps over the grid: the left operand's and the result's block index is the point on the row axis,
    the right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows 2000·t … 2000·t + 1999 of its array. -/
theorem lblk_apply (c : Dev nD) (t : Fin cfg0.N) (x : S2000x128.Idx) (y : S50000x128.Idx)
    (h0 : (y 0).val = 2000 * t.val + (x 0).val) (h1 : (y 1).val = (x 1).val) :
    (iblk0 V c 0 t : Vec Ideal S2000x128 .f32) x = xarr V c y := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 2000 + 1 * (x 0).val = (y 0).val; rw [e0, h0]; omega
  | ⟨1, _⟩ => show win0_0.index t 1 * 128 + 1 * (x 1).val = (y 1).val; rw [e1, h1]; omega

/-- The right operand's block at every point is its whole array. -/
theorem rblk_apply (c : Dev nD) (t : Fin cfg0.N) (x y : S128x256.Idx)
    (h0 : (y 0).val = (x 0).val) (h1 : (y 1).val = (x 1).val) :
    (iblk0 V c 1 t : Vec Ideal S128x256 .f32) x = warr V c y := by
  obtain ⟨-, -, e2, e3, -⟩ := idx_facts t
  unfold iblk0
  rw [View.read_apply]
  show V c main_arg2 _ = V c main_arg2 _
  refine congrArg (V c main_arg2) ?_
  funext a
  apply Fin.ext
  match a with
  | ⟨0, _⟩ => show win0_1.index t 0 * 128 + 1 * (x 0).val = (y 0).val; rw [e2, h0]; omega
  | ⟨1, _⟩ => show win0_1.index t 1 * 256 + 1 * (x 1).val = (y 1).val; rw [e3, h1]; omega

/-- Entry `j` of the result's block at point `t` sits at row 2000·t + j₀, column j₁ of the array. -/
theorem oblk_emb (t : Fin cfg0.N) (j : S2000x256.Idx) :
    ((((cfg0.win 2).blk t).view.emb j) 0).val = 2000 * t.val + (j 0).val
    ∧ ((((cfg0.win 2).blk t).view.emb j) 1).val = (j 1).val := by
  obtain ⟨-, -, -, -, e4, e5⟩ := idx_facts t
  constructor
  · show win0_2.index t 0 * 2000 + 1 * (j 0).val = _; rw [e4]; omega
  · show win0_2.index t 1 * 256 + 1 * (j 1).val = _; rw [e5]; omega

/-! ## From the blocks to the array -/

/-- What point `t` writes back is block `t` of the product of the whole arrays. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  funext j
  obtain ⟨p, q, rfl⟩ : ∃ (p : Fin 2000) (q : Fin 256), j = ix2 p q := ⟨j 0, j 1, eq_ix2 j⟩
  obtain ⟨hr, hc⟩ := oblk_emb t (ix2 p q)
  rw [View.read_apply]
  refine (pay_apply (iblk0 V c 0 t) (iblk0 V c 1 t) p q).trans ?_
  unfold prod
  refine Finset.sum_congr rfl fun k _ => ?_
  rw [lblk_apply V c t (ix2 p k) (ix2 (⟨((((cfg0.win 2).blk t).view.emb (ix2 p q)) 0).val, idx2_lt0 _⟩ : Fin 50000) k) hr rfl,
    rblk_apply V c t (ix2 k q) (ix2 k (⟨((((cfg0.win 2).blk t).view.emb (ix2 p q)) 1).val, idx2_lt1 _⟩ : Fin 256)) rfl hc]

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Every row of the result lies in the block of the point its row number divided by 2000 names. -/
theorem cover (i : S50000x256.Idx) : ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 25 := N_0
  let t : Fin cfg0.N := ⟨(i 0).val / 2000, by rw [hN]; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4']; omega
  | ⟨1, _⟩ => show win0_2.index t (1 : Fin 2) * 256 ≤ (i 1).val ∧ (i 1).val < win0_2.index t (1 : Fin 2) * 256 + 256; rw [e5]; omega

/-- The result array after the region: the product of the two arrays as the region found them. -/
theorem final (c : Dev nD) : (dat0 V c).arrAt 2 cfg0.N = prod (xarr V c) (warr V c) :=
  (dat0 V c).arrAt_eq_of_cover 2 (prod (xarr V c) (warr V c)) (fun t _ => flushed_eq V c t) cover

end Cert.KernelIdeal.Mm1

end
-- ==== Proof.Mm2.lean ====
/-
  The second layer's linear transform. The kernel region multiplies the hidden features, 2000 rows at a time, by the
  whole weight matrix: grid point t loads rows 2000·t … 2000·t + 1999 of the 50000 × 256 array and the whole 256 × 64
  array, and stores their product into rows 2000·t … 2000·t + 1999 of the 50000 × 64 result. The body first recasts its
  left block to its own shape, which changes nothing; the narrowing of both operands to bf16 is the identity over the
  extended reals and the product into a zero accumulator is the plain sum ∑ₖ a(r, k) · w(k, j). A row of the result
  depends on that one row of the left operand only, so the 25 row blocks together are the product of the whole arrays,
  entry by entry: `final`. Stated at a parameter `V`, the buffer contents the region is entered from.
-/
import proofs.«173708_j16329465660164_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Mm2

open Idealize.ShloMosaic Idealize.ShloMosaic.TcCoe Idealize.SL.Sem Idealize.ShloMosaic.ValueIdx
open Idealize.ShloMosaic.Pipeline (Dat)
open Cert.KernelIdeal Cert.KernelIdeal.Gen

/-- The product of a 50000 × 256 array by a 256 × 64 array over the extended reals: entry (r, j) is ∑ₖ a(r, k) · w(k, j). -/
def prod (a : (⟨S50000x256, .f32⟩ : BufTy).Contents (Elt Ideal)) (w : (⟨S256x64, .f32⟩ : BufTy).Contents (Elt Ideal)) :
    (⟨S50000x64, .f32⟩ : BufTy).Contents (Elt Ideal) :=
  fun i => ∑ k : Fin 256, a (ix2 (⟨(i 0).val, idx2_lt0 i⟩ : Fin 50000) k) * w (ix2 k (⟨(i 1).val, idx2_lt1 i⟩ : Fin 64))

theorem hz : (![0, 0] : Fin 2 → Nat) = fun _ => 0 := funext fun a => by fin_cases a <;> rfl

/-! ## One block's product at an entry -/

/-- The left operand's index for result entry `i` and contraction index `q`: row `i 0`, column `q`. -/
theorem lhs_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
/-- The right operand's: row `q`, column `i 1`. -/
theorem rhs_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- What the body stores, at entry (p, q) of the block: ∑ₖ x0(p, k) · x1(k, q). The recast of the left block to its own shape changes
    nothing, the narrowing to bf16 is the identity over the extended reals and the accumulator is zero. -/
theorem pay_apply (x0 : Vec Ideal S2000x256 .f32) (x1 : Vec Ideal S256x64 .f32) (p : Fin 2000) (q : Fin 64) :
    k1_pay1 (F := Ideal) x0 x1 (ix2 p q) = ∑ k : Fin 256, x0 (ix2 p k) * x1 (ix2 k q) := by
  unfold k1_pay1
  show FloatOps.matmul (F := Ideal) dot_S2000x256_S256x64_S2000x64_1_0_0_1_n_n none (truncf (F := Ideal) .bf16 (shapeCast S2000x256 (x0 : FVec Ideal S2000x256 .f32) shapeCasts_S2000x256_S2000x256) bitsLt_bf16_f32) (truncf (F := Ideal) .bf16 (x1 : FVec Ideal S256x64 .f32) bitsLt_bf16_f32) (constant (F := Ideal) S2000x64 .f32 0x00000000#32) (ix2 p q) = _
  rw [shapeCast_self, Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 p q) ((ValueIdx.contrEquiv1 dot_S2000x256_S256x64_S2000x64_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x64_S2000x64_1_0_0_1_n_n.rhsIdx (ix2 p q) ((ValueIdx.contrEquiv1 dot_S2000x256_S256x64_S2000x64_1_0_0_1_n_n 256 rfl rfl).symm k) = ix2 k q := funext fun a => Fin.ext (by
    match a with
    | ⟨0, _⟩ => exact (rhs_0 _ _).trans hk
    | ⟨1, _⟩ => exact rhs_1 _ _)
  rw [el, er]
  rfl

/-! ## The blocks as rows of the arrays -/

variable (V : (c : Dev nD) → (b : Ref sig .tc) → Buf (Elt Ideal) ((c : Thread nD τ).loc b))

/-- The hidden-feature array and the weight array as the region finds them, at their literal types. -/
abbrev xarr (c : Dev nD) : (⟨S50000x256, .f32⟩ : BufTy).Contents (Elt Ideal) := V c main_v49
abbrev warr (c : Dev nD) : (⟨S256x64, .f32⟩ : BufTy).Contents (Elt Ideal) := V c main_arg4

/-- The printed index maps over the grid: the left operand's and the result's block index is the point on the row axis,
    the right operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows 2000·t … 2000·t + 1999 of its array. -/
theorem lblk_apply (c : Dev nD) (t : Fin cfg1.N) (x : S2000x256.Idx) (y : S50000x256.Idx)
    (h0 : (y 0).val = 2000 * t.val + (x 0).val) (h1 : (y 1).val = (x 1).val) :
    (iblk1 V c 0 t : Vec Ideal S2000x256 .f32) x = xarr V c y := by
  obtain ⟨e0, e1, -⟩ := idx_facts t
  unfold iblk1
  rw [View.read_apply]
  show V c main_v49 _ = V c main_v49 _
  refine congrArg (V c main_v49) ?_
  funext a
  apply Fin.ext
  match a with
  | ⟨0, _⟩ => show win1_0.index t 0 * 2000 + 1 * (x 0).val = (y 0).val; rw [e0, h0]; omega
  | ⟨1, _⟩ => show win1_0.index t 1 * 256 + 1 * (x 1).val = (y 1).val; rw [e1, h1]; omega

/-- The right operand's block at every point is its whole array. -/
theorem rblk_apply (c : Dev nD) (t : Fin cfg1.N) (x y : S256x64.Idx)
    (h0 : (y 0).val = (x 0).val) (h1 : (y 1).val = (x 1).val) :
    (iblk1 V c 1 t : Vec Ideal S256x64 .f32) x = warr V c y := by
  obtain ⟨-, -, e2, e3, -⟩ := idx_facts t
  unfold iblk1
  rw [View.read_apply]
  show V c main_arg4 _ = V c main_arg4 _
  refine congrArg (V c main_arg4) ?_
  funext a
  apply Fin.ext
  match a with
  | ⟨0, _⟩ => show win1_1.index t 0 * 256 + 1 * (x 0).val = (y 0).val; rw [e2, h0]; omega
  | ⟨1, _⟩ => show win1_1.index t 1 * 64 + 1 * (x 1).val = (y 1).val; rw [e3, h1]; omega

/-- Entry `j` of the result's block at point `t` sits at row 2000·t + j₀, column j₁ of the array. -/
theorem oblk_emb (t : Fin cfg1.N) (j : S2000x64.Idx) :
    ((((cfg1.win 2).blk t).view.emb j) 0).val = 2000 * t.val + (j 0).val
    ∧ ((((cfg1.win 2).blk t).view.emb j) 1).val = (j 1).val := by
  obtain ⟨-, -, -, -, e4, e5⟩ := idx_facts t
  constructor
  · show win1_2.index t 0 * 2000 + 1 * (j 0).val = _; rw [e4]; omega
  · show win1_2.index t 1 * 64 + 1 * (j 1).val = _; rw [e5]; omega

/-! ## From the blocks to the array -/

/-- What point `t` writes back is block `t` of the product of the whole arrays. -/
theorem flushed_eq (c : Dev nD) (t : Fin cfg1.N) :
    (dat1 V c).flushed 2 t = ((cfg1.win 2).blk t).view.read (Elt Ideal) (prod (xarr V c) (warr V c)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x64) hz]
  funext j
  obtain ⟨p, q, rfl⟩ : ∃ (p : Fin 2000) (q : Fin 64), j = ix2 p q := ⟨j 0, j 1, eq_ix2 j⟩
  obtain ⟨hr, hc⟩ := oblk_emb t (ix2 p q)
  rw [View.read_apply]
  refine (pay_apply (iblk1 V c 0 t) (iblk1 V c 1 t) p q).trans ?_
  unfold prod
  refine Finset.sum_congr rfl fun k _ => ?_
  rw [lblk_apply V c t (ix2 p k) (ix2 (⟨((((cfg1.win 2).blk t).view.emb (ix2 p q)) 0).val, idx2_lt0 _⟩ : Fin 50000) k) hr rfl,
    rblk_apply V c t (ix2 k q) (ix2 k (⟨((((cfg1.win 2).blk t).view.emb (ix2 p q)) 1).val, idx2_lt1 _⟩ : Fin 64)) rfl hc]

/-- An index of the result array is in point `t`'s block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v50).slice (win1_2.rect t)).set ↔ _
  rw [View.set_slice_whole, Rect.mem_set_unit]
  exact Iff.rfl

/-- Every row of the result lies in the block of the point its row number divided by 2000 names. -/
theorem cover (i : S50000x64.Idx) : ∃ t : Fin cfg1.N, (cfg1.win 2).flush t = true ∧ i ∈ ((cfg1.win 2).blk t).view.set := by
  have hi0 : (i 0).val < 50000 := idx2_lt0 i
  have hi1 : (i 1).val < 64 := idx2_lt1 i
  have hN : cfg1.N = 25 := N_1
  let t : Fin cfg1.N := ⟨(i 0).val / 2000, by rw [hN]; omega⟩
  obtain ⟨-, -, -, -, e4, e5⟩ := idx_facts t
  have e4' : win1_2.index t (0 : Fin 2) = (i 0).val / 2000 := e4
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4']; omega
  | ⟨1, _⟩ => show win1_2.index t (1 : Fin 2) * 64 ≤ (i 1).val ∧ (i 1).val < win1_2.index t (1 : Fin 2) * 64 + 64; rw [e5]; omega

/-- The result array after the region: the product of the two arrays as the region found them. -/
theorem final (c : Dev nD) : (dat1 V c).arrAt 2 cfg1.N = prod (xarr V c) (warr V c) :=
  (dat1 V c).arrAt_eq_of_cover 2 (prod (xarr V c) (warr V c)) (fun t _ => flushed_eq V c t) cover

end Cert.KernelIdeal.Mm2

end
-- ==== Proof.Pre.lean ====
/-
  What the host operations before the first kernel region leave in the buffers that the later stretches read, and that
  nothing afterwards writes them. The message sources `main_v3` (the edges' first row followed by one self-loop per node),
  the message targets `main_v6` (the second row, likewise) and the message weights `main_v31`
  (dinv at the source times dinv at the target, dinv = 1/√deg where the degree is positive, else 0) are computed from
  the edge list alone by the same operations, in the same order, as in the reference: each is the reference's own stage
  of the edge list. The six arguments are never written.
-/
import proofs.«173708_j16329465660164_1_alg».proof.Proof.Gen.KernelIdeal.Frame
import proofs.«173708_j16329465660164_1_alg».proof.Proof.RefRead

set_option maxRecDepth 16384

noncomputable section

namespace Cert.KernelIdeal.Pre

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## At the first region's entry -/

set_option maxHeartbeats 2000000 in
/-- The message sources at the first region's entry. -/
theorem W3_v3 (c : Dev nD) : W3 m ρ c (Proc.devRef .tc main_v3)
    = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  simp only [hostOps0, hostOps0_1, hostOps0_2]
  after_results
  rfl

set_option maxHeartbeats 2000000 in
/-- The message targets at the first region's entry. -/
theorem W3_v6 (c : Dev nD) : W3 m ρ c (Proc.devRef .tc main_v6)
    = Cert.ReferenceIdeal.Read.val_main_v6 (F := F) (m ((c : Thread nD τ).loc main_arg1)) := by
  show StableHlo.after hostOps0_2 (StableHlo.after hostOps0_1 (StableHlo.after hostOps0 (W0 m ρ c))) (Proc.devRef .tc main_v6) = _
  simp only [hostOps0, hostOps0_1, hostOps0_2]
  after_results
  rfl

set_option maxHeartbeats 8000000 in
/-- The message weights at the first region's entry. -/
theorem W3_v31 (c : Dev nD) : W3 m ρ c (Proc.devRef .tc main_v31)
    = Cert.ReferenceIdeal.Read.val_main_v31 (F := F) (m ((c : Thread nD τ).loc main_arg1)) := by
  show StableHlo.after hostOps0_2 (StableHlo.after hostOps0_1 (StableHlo.after hostOps0 (W0 m ρ c))) (Proc.devRef .tc main_v31) = _
  simp only [hostOps0, hostOps0_1, hostOps0_2]
  after_results
  rfl

end Cert.KernelIdeal.Pre

end
-- ==== Proof.Keep.lean ====
/-
  Buffers that a kernel region does not stage and that no later host operation writes keep their contents from one
  boundary of @main to the next. Followed here for the buffers the later stretches and the second region read: the
  message sources, targets and weights (written once, before the first region) and the arguments (never written).
  Each ends at the reference's stage of the edge list, or at the argument as launched.
-/
import proofs.«173708_j16329465660164_1_alg».proof.Proof.Gen.KernelIdeal.Frame
import proofs.«173708_j16329465660164_1_alg».proof.Proof.Pre

set_option maxRecDepth 16384

noncomputable section

namespace Cert.KernelIdeal.Keep

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The arguments at the first region's entry: no operation before it writes one -/

set_option maxHeartbeats 2000000 in
/-- The node features at the first region's entry are the argument as launched. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  simp only [hostOps0, hostOps0_1, hostOps0_2]
  after_results <;> rfl

set_option maxHeartbeats 2000000 in
/-- The first weights at the first region's entry are the argument as launched. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  simp only [hostOps0, hostOps0_1, hostOps0_2]
  after_results <;> rfl

set_option maxHeartbeats 2000000 in
/-- The first bias at the first region's entry are the argument as launched. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0, hostOps0_1, hostOps0_2]
  after_results <;> rfl

set_option maxHeartbeats 2000000 in
/-- The second weights at the first region's entry are the argument as launched. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results <;> rfl

set_option maxHeartbeats 2000000 in
/-- The second bias at the first region's entry are the argument as launched. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  simp only [hostOps0, hostOps0_1, hostOps0_2]
  after_results <;> rfl

/-! ## Across the first region: it stages the node features, the first weights and its result only -/

theorem W4_v3 (c : Dev nD) : W4 m ρ c (Proc.devRef .tc main_v3)
    = Cert.ReferenceIdeal.Read.val_main_v3 (F := F) (m ((c : Thread nD τ).loc main_arg1)) :=
  (W4_of_ne m ρ c main_v3 (by decide)).trans (Pre.W3_v3 m ρ c)
theorem W4_v6 (c : Dev nD) : W4 m ρ c (Proc.devRef .tc main_v6)
    = Cert.ReferenceIdeal.Read.val_main_v6 (F := F) (m ((c : Thread nD τ).loc main_arg1)) :=
  (W4_of_ne m ρ c main_v6 (by decide)).trans (Pre.W3_v6 m ρ c)
theorem W4_v31 (c : Dev nD) : W4 m ρ c (Proc.devRef .tc main_v31)
    = Cert.ReferenceIdeal.Read.val_main_v31 (F := F) (m ((c : Thread nD τ).loc main_arg1)) :=
  (W4_of_ne m ρ c main_v31 (by decide)).trans (Pre.W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-! ## Across the host operations between the regions: they write the first layer's values only -/

set_option maxHeartbeats 2000000 in
theorem W6_v3 (c : Dev nD) : W6 m ρ c (Proc.devRef .tc main_v3)
    = Cert.ReferenceIdeal.Read.val_main_v3 (F := F) (m ((c : Thread nD τ).loc main_arg1)) :=
  (show W6 m ρ c (Proc.devRef .tc main_v3) = W4 m ρ c (Proc.devRef .tc main_v3) by
    show StableHlo.after hostOps1_1 (StableHlo.after hostOps1 (W4 m ρ c)) (Proc.devRef .tc main_v3) = _
    simp only [hostOps1, hostOps1_1]
    after_results <;> rfl).trans (W4_v3 m ρ c)
set_option maxHeartbeats 2000000 in
theorem W6_v6 (c : Dev nD) : W6 m ρ c (Proc.devRef .tc main_v6)
    = Cert.ReferenceIdeal.Read.val_main_v6 (F := F) (m ((c : Thread nD τ).loc main_arg1)) :=
  (show W6 m ρ c (Proc.devRef .tc main_v6) = W4 m ρ c (Proc.devRef .tc main_v6) by
    show StableHlo.after hostOps1_1 (StableHlo.after hostOps1 (W4 m ρ c)) (Proc.devRef .tc main_v6) = _
    simp only [hostOps1, hostOps1_1]
    after_results <;> rfl).trans (W4_v6 m ρ c)
set_option maxHeartbeats 2000000 in
theorem W6_v31 (c : Dev nD) : W6 m ρ c (Proc.devRef .tc main_v31)
    = Cert.ReferenceIdeal.Read.val_main_v31 (F := F) (m ((c : Thread nD τ).loc main_arg1)) :=
  (show W6 m ρ c (Proc.devRef .tc main_v31) = W4 m ρ c (Proc.devRef .tc main_v31) by
    show StableHlo.after hostOps1_1 (StableHlo.after hostOps1 (W4 m ρ c)) (Proc.devRef .tc main_v31) = _
    simp only [hostOps1, hostOps1_1]
    after_results <;> rfl).trans (W4_v31 m ρ c)
set_option maxHeartbeats 2000000 in
theorem W6_arg4 (c : Dev nD) : W6 m ρ c (Proc.devRef .tc main_arg4) = m ((c : Thread nD τ).loc main_arg4) :=
  (show W6 m ρ c (Proc.devRef .tc main_arg4) = W4 m ρ c (Proc.devRef .tc main_arg4) by
    show StableHlo.after hostOps1_1 (StableHlo.after hostOps1 (W4 m ρ c)) (Proc.devRef .tc main_arg4) = _
    simp only [hostOps1, hostOps1_1]
    after_results <;> rfl).trans (W4_arg4 m ρ c)
set_option maxHeartbeats 2000000 in
theorem W6_arg5 (c : Dev nD) : W6 m ρ c (Proc.devRef .tc main_arg5) = m ((c : Thread nD τ).loc main_arg5) :=
  (show W6 m ρ c (Proc.devRef .tc main_arg5) = W4 m ρ c (Proc.devRef .tc main_arg5) by
    show StableHlo.after hostOps1_1 (StableHlo.after hostOps1 (W4 m ρ c)) (Proc.devRef .tc main_arg5) = _
    simp only [hostOps1, hostOps1_1]
    after_results <;> rfl).trans (W4_arg5 m ρ c)

/-! ## Across the second region: it stages the hidden features, the second weights and its result only -/

theorem W7_v3 (c : Dev nD) : W7 m ρ c (Proc.devRef .tc main_v3)
    = Cert.ReferenceIdeal.Read.val_main_v3 (F := F) (m ((c : Thread nD τ).loc main_arg1)) :=
  (W7_of_ne m ρ c main_v3 (by decide)).trans (W6_v3 m ρ c)
theorem W7_v6 (c : Dev nD) : W7 m ρ c (Proc.devRef .tc main_v6)
    = Cert.ReferenceIdeal.Read.val_main_v6 (F := F) (m ((c : Thread nD τ).loc main_arg1)) :=
  (W7_of_ne m ρ c main_v6 (by decide)).trans (W6_v6 m ρ c)
theorem W7_v31 (c : Dev nD) : W7 m ρ c (Proc.devRef .tc main_v31)
    = Cert.ReferenceIdeal.Read.val_main_v31 (F := F) (m ((c : Thread nD τ).loc main_arg1)) :=
  (W7_of_ne m ρ c main_v31 (by decide)).trans (W6_v31 m ρ c)
theorem W7_arg5 (c : Dev nD) : W7 m ρ c (Proc.devRef .tc main_arg5) = m ((c : Thread nD τ).loc main_arg5) :=
  (W7_of_ne m ρ c main_arg5 (by decide)).trans (W6_arg5 m ρ c)

end Cert.KernelIdeal.Keep

end
-- ==== Proof.Layers.lean ====
/-
  The two graph-convolution layers after their linear transforms, each as one function of the transform's result.
  A layer gathers the transformed features h at each message's source node, scales row e by the message's weight
  norm(e) = dinv(row e) · dinv(col e), adds the scaled rows into their target nodes and adds the bias; the first layer
  then clamps at zero. The messages (the edges followed by one self-loop per node), their weights and the wrapped
  source indices depend on the edge list alone: they are the reference's own stages of it, used here unopened.
  `ref_eq`: the reference's result is the second layer of the product (hidden features × second weights), the hidden
  features being the first layer of the product (node features × first weights).
-/
import proofs.«173708_j16329465660164_1_alg».proof.Proof.RefRead

noncomputable section

namespace Cert.Gcn

open Idealize.ShloMosaic Idealize.ShloMosaic.TcCoe Idealize.SL.Sem
open Cert.ReferenceIdeal Cert.ReferenceIdeal.Read

variable {F : FTy → Type} [FloatOps F]

/-- The first layer from its transformed features `h` (50000 × 256): the weighted messages summed into their target
    nodes over a zero array, the bias `b` added to every row, the result clamped at zero. -/
def layer1 (h : (⟨S50000x256, .f32⟩ : BufTy).Contents (Elt F)) (ei : (⟨S2x800000, .i32⟩ : BufTy).Contents (Elt F))
    (b : (⟨S256, .f32⟩ : BufTy).Contents (Elt F)) : (⟨S50000x256, .f32⟩ : BufTy).Contents (Elt F) :=
  maximumf
    (addf
      (Host.scatterAdd scatter_S50000x256_S850000x1_S850000x256_1_0_0_1 (val_main_v43 (F := F)) (val_main_v44 (F := F) ei)
        (mulf (Host.gather gather_S50000x256_S850000x1_S850000x256_1_0_n_n_0_1_1256 h (val_main_v38 (F := F) ei)) (val_main_v41 (F := F) ei)))
      (val_main_v47 (F := F) b))
    (val_main_call1_v0 (F := F))

/-- The second layer from its transformed features `h` (50000 × 64): the weighted messages summed into their target
    nodes over a zero array, the bias `b` added to every row. -/
def layer2 (h : (⟨S50000x64, .f32⟩ : BufTy).Contents (Elt F)) (ei : (⟨S2x800000, .i32⟩ : BufTy).Contents (Elt F))
    (b : (⟨S64, .f32⟩ : BufTy).Contents (Elt F)) : (⟨S50000x64, .f32⟩ : BufTy).Contents (Elt F) :=
  addf
    (Host.scatterAdd scatter_S50000x64_S850000x1_S850000x64_1_0_0_1 (val_main_v61 (F := F)) (val_main_v62 (F := F) ei)
      (mulf (Host.gather gather_S50000x64_S850000x1_S850000x64_1_0_n_n_0_1_164 h (val_main_v56 (F := F) ei)) (val_main_v59 (F := F) ei)))
    (val_main_v65 (F := F) b)

/-- The reference's result, stage by stage, is the two layers around its two matrix products. -/
theorem ref_eq (x0 : (⟨S50000x128, .f32⟩ : BufTy).Contents (Elt F)) (x1 : (⟨S2x800000, .i32⟩ : BufTy).Contents (Elt F))
    (x2 : (⟨S128x256, .f32⟩ : BufTy).Contents (Elt F)) (x3 : (⟨S256, .f32⟩ : BufTy).Contents (Elt F))
    (x4 : (⟨S256x64, .f32⟩ : BufTy).Contents (Elt F)) (x5 : (⟨S64, .f32⟩ : BufTy).Contents (Elt F)) :
    val_main_v66 (F := F) x0 x1 x2 x3 x4 x5
      = layer2 (Host.dotGeneral dot_S50000x256_S256x64_S50000x64_1_0_0_1_n_n none
          (layer1 (Host.dotGeneral dot_S50000x128_S128x256_S50000x256_1_0_0_1_n_n none x0 x2) x1 x3) x4) x1 x5 := by
  unfold val_main_v66 val_main_v63 val_main_v60 val_main_v57 val_main_v50 val_main_v49 val_main_v48 val_main_v45
    val_main_v42 val_main_v39 val_main_v32 layer2 layer1
  rfl

end Cert.Gcn

end
-- ==== Proof.Between.lean ====
/-
  The host operations between the two kernel regions and after the second, as functions of what the regions leave.
  Between the regions they gather the first region's result at the message sources, scale by the message weights, sum
  into the message targets, add the first bias and clamp at zero: the first layer of that result. After the second
  region they do the same, without the clamp, to its result with the second bias: the second layer. The sources,
  targets and weights are read where the first stretch left them (Keep.lean).
-/
import proofs.«173708_j16329465660164_1_alg».proof.Proof.Gen.KernelIdeal.Frame
import proofs.«173708_j16329465660164_1_alg».proof.Proof.Keep
import proofs.«173708_j16329465660164_1_alg».proof.Proof.Layers

set_option maxRecDepth 16384

noncomputable section

namespace Cert.KernelIdeal.Between

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 4000000 in
/-- The hidden features at the second region's entry: the first layer of the first region's result. -/
theorem W6_v49 (c : Dev nD) : W6 m ρ c (Proc.devRef .tc main_v49)
    = Cert.Gcn.layer1 (F := F) (W4 m ρ c (Proc.devRef .tc main_v32)) (m ((c : Thread nD τ).loc main_arg1)) (m ((c : Thread nD τ).loc main_arg3)) := by
  show StableHlo.after hostOps1_1 (StableHlo.after hostOps1 (W4 m ρ c)) (Proc.devRef .tc main_v49) = _
  simp only [hostOps1, hostOps1_1]
  after_results
  rw [Keep.W4_v3 m ρ c, Keep.W4_v6 m ρ c, Keep.W4_v31 m ρ c, Keep.W4_arg3 m ρ c]
  rfl

set_option maxHeartbeats 4000000 in
/-- The result array at the return: the second layer of the second region's result. -/
theorem W8_v66 (c : Dev nD) : W8 m ρ c (Proc.devRef .tc main_v66)
    = Cert.Gcn.layer2 (F := F) (W7 m ρ c (Proc.devRef .tc main_v50)) (m ((c : Thread nD τ).loc main_arg1)) (m ((c : Thread nD τ).loc main_arg5)) := by
  show StableHlo.after hostOps2 (W7 m ρ c) (Proc.devRef .tc main_v66) = _
  simp only [hostOps2]
  after_results
  rw [Keep.W7_v3 m ρ c, Keep.W7_v6 m ρ c, Keep.W7_v31 m ρ c, Keep.W7_arg5 m ρ c]
  rfl

end Cert.KernelIdeal.Between

end
-- ==== Proof.KernelValue.lean ====
/-
  The kernel program's result array, as one function of the six arguments, over the extended reals. The first region
  leaves the product (node features × first weights) in its result array (Mm1.lean); the stretch between the regions
  makes the first layer of it (Between.lean); the second region leaves the product (that × second weights) (Mm2.lean);
  the last stretch makes the second layer of it. The regions' operands are the arguments as launched and the hidden
  features as the middle stretch left them (Keep.lean).
-/
import proofs.«173708_j16329465660164_1_alg».proof.Proof.Gen.KernelIdeal.Frame
import proofs.«173708_j16329465660164_1_alg».proof.Proof.Mm1
import proofs.«173708_j16329465660164_1_alg».proof.Proof.Mm2
import proofs.«173708_j16329465660164_1_alg».proof.Proof.Between

set_option maxRecDepth 16384

noncomputable section

namespace Cert.KernelIdeal.Out

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The first region's result array at its exit: node features × first weights. -/
theorem W4_v32 (c : Dev nD) : W4 m ρ c (Proc.devRef .tc main_v32)
    = Mm1.prod (m ((c : Thread nD τ).loc main_arg0)) (m ((c : Thread nD τ).loc main_arg2)) := by
  refine (W4_arr m ρ c 2).trans ((Mm1.final (V3 m ρ) c).trans ?_)
  show Mm1.prod (W3 m ρ c (Proc.devRef .tc main_arg0)) (W3 m ρ c (Proc.devRef .tc main_arg2)) = _
  rw [Keep.W3_arg0 m ρ c, Keep.W3_arg2 m ρ c]

/-- The second region's result array at its exit: hidden features × second weights. -/
theorem W7_v50 (c : Dev nD) : W7 m ρ c (Proc.devRef .tc main_v50)
    = Mm2.prod (W6 m ρ c (Proc.devRef .tc main_v49)) (m ((c : Thread nD τ).loc main_arg4)) := by
  refine (W7_arr m ρ c 2).trans ((Mm2.final (V6 m ρ) c).trans ?_)
  show Mm2.prod (W6 m ρ c (Proc.devRef .tc main_v49)) (W6 m ρ c (Proc.devRef .tc main_arg4)) = _
  rw [Keep.W6_arg4 m ρ c]

/-- The result array at the return, from the arguments: the second layer of (the first layer of (node features × first
    weights) × second weights). -/
theorem result_eq (c : Dev nD) : W8 m ρ c (Proc.devRef .tc main_v66)
    = Cert.Gcn.layer2 (F := Ideal)
        (Mm2.prod
          (Cert.Gcn.layer1 (F := Ideal) (Mm1.prod (m ((c : Thread nD τ).loc main_arg0)) (m ((c : Thread nD τ).loc main_arg2)))
            (m ((c : Thread nD τ).loc main_arg1)) (m ((c : Thread nD τ).loc main_arg3)))
          (m ((c : Thread nD τ).loc main_arg4)))
        (m ((c : Thread nD τ).loc main_arg1)) (m ((c : Thread nD τ).loc main_arg5)) := by
  rw [Between.W8_v66 m ρ c, W7_v50 m ρ c, Between.W6_v49 m ρ c, W4_v32 m ρ c]

end Cert.KernelIdeal.Out

end
-- ==== Proof.Bridge.lean ====
/-
  The reference's two matrix products are the kernel regions'. Over the extended reals the host's `dot_general` with one
  contracted axis is, entry by entry, the sum ∑ₖ a(r, k) · w(k, j) over that axis; the kernel regions' result arrays are
  the same sums (Mm1.lean, Mm2.lean: the row blocks put together). The same terms in the same order, so no law of the
  extended reals is used beyond reading both sides at an entry.
-/
import proofs.«173708_j16329465660164_1_alg».proof.Proof.RefRead
import proofs.«173708_j16329465660164_1_alg».proof.Proof.Mm1
import proofs.«173708_j16329465660164_1_alg».proof.Proof.Mm2

set_option maxRecDepth 16384

noncomputable section

open scoped BigOperators

namespace Cert.Gcn

open Idealize.ShloMosaic Idealize.ShloMosaic.TcCoe Idealize.SL.Sem Idealize.ShloMosaic.ValueIdx
open Cert.ReferenceIdeal Cert.ReferenceIdeal.Read

/-- The first product: node features × first weights. -/
theorem dot1_eq (a : (⟨S50000x128, .f32⟩ : BufTy).Contents (Elt Ideal)) (w : (⟨S128x256, .f32⟩ : BufTy).Contents (Elt Ideal)) :
    Host.dotGeneral (F := Ideal) (φ₁ := .f32) (φ₂ := .f32) dot_S50000x128_S128x256_S50000x256_1_0_0_1_n_n none a w = Cert.KernelIdeal.Mm1.prod a w := by
  funext i
  show val_main_v32 (F := Ideal) a w i = _
  rw [val_main_v32_apply]
  unfold Cert.KernelIdeal.Mm1.prod
  refine Finset.sum_congr rfl fun k _ => ?_
  have el : lidx_main_v32 i k = ix2 (⟨(i 0).val, idx2_lt0 i⟩ : Fin 50000) k := funext fun d => Fin.ext (by
    match d with
    | ⟨0, _⟩ => rfl
    | ⟨1, _⟩ => rfl)
  have er : ridx_main_v32 i k = ix2 k (⟨(i 1).val, idx2_lt1 i⟩ : Fin 256) := funext fun d => Fin.ext (by
    match d with
    | ⟨0, _⟩ => rfl
    | ⟨1, _⟩ => rfl)
  rw [el, er]

/-- The host's second product at an entry, for any left operand: the sum over the contracted axis. -/
theorem dot2_apply (a : (⟨S50000x256, .f32⟩ : BufTy).Contents (Elt Ideal)) (w : (⟨S256x64, .f32⟩ : BufTy).Contents (Elt Ideal)) (i : S50000x64.Idx) :
    Host.dotGeneral (F := Ideal) (φ₁ := .f32) (φ₂ := .f32) dot_S50000x256_S256x64_S50000x64_1_0_0_1_n_n none a w i = ∑ k : Fin 256, a (lidx_main_v50 i k) * w (ridx_main_v50 i k) := by
  simp only [Host.dotGeneral]
  rw [Ideal.dotGeneral_apply, ← Equiv.sum_comp (ValueIdx.contrEquiv1 dot_S50000x256_S256x64_S50000x64_1_0_0_1_n_n 256 rfl rfl).symm]
  refine Finset.sum_congr rfl fun k _ => ?_
  have hk := ValueIdx.contrEquiv1_symm_val dot_S50000x256_S256x64_S50000x64_1_0_0_1_n_n 256 rfl rfl k
  have el : dot_S50000x256_S256x64_S50000x64_1_0_0_1_n_n.lhsIdx i ((ValueIdx.contrEquiv1 dot_S50000x256_S256x64_S50000x64_1_0_0_1_n_n 256 rfl rfl).symm k) = lidx_main_v50 i k := funext fun d => Fin.ext (by
    match d with
    | ⟨0, _⟩ => exact lhs_main_v50_0 _ _
    | ⟨1, _⟩ => exact (lhs_main_v50_1 _ _).trans hk)
  have er : dot_S50000x256_S256x64_S50000x64_1_0_0_1_n_n.rhsIdx i ((ValueIdx.contrEquiv1 dot_S50000x256_S256x64_S50000x64_1_0_0_1_n_n 256 rfl rfl).symm k) = ridx_main_v50 i k := funext fun d => Fin.ext (by
    match d with
    | ⟨0, _⟩ => exact (rhs_main_v50_0 _ _).trans hk
    | ⟨1, _⟩ => exact rhs_main_v50_1 _ _)
  rw [el, er]

/-- The second product: hidden features × second weights. -/
theorem dot2_eq (a : (⟨S50000x256, .f32⟩ : BufTy).Contents (Elt Ideal)) (w : (⟨S256x64, .f32⟩ : BufTy).Contents (Elt Ideal)) :
    Host.dotGeneral (F := Ideal) (φ₁ := .f32) (φ₂ := .f32) dot_S50000x256_S256x64_S50000x64_1_0_0_1_n_n none a w = Cert.KernelIdeal.Mm2.prod a w := by
  funext i
  rw [dot2_apply]
  unfold Cert.KernelIdeal.Mm2.prod
  refine Finset.sum_congr rfl fun k _ => ?_
  have el : lidx_main_v50 i k = ix2 (⟨(i 0).val, idx2_lt0 i⟩ : Fin 50000) k := funext fun d => Fin.ext (by
    match d with
    | ⟨0, _⟩ => rfl
    | ⟨1, _⟩ => rfl)
  have er : ridx_main_v50 i k = ix2 k (⟨(i 1).val, idx2_lt1 i⟩ : Fin 64) := funext fun d => Fin.ext (by
    match d with
    | ⟨0, _⟩ => rfl
    | ⟨1, _⟩ => rfl)
  rw [el, er]

end Cert.Gcn

end
-- ==== Proof.lean ====
/-
  A two-layer graph convolution: both layers' linear transforms run as tiled matrix products in kernel regions, 2000 node
  rows at a time, everything else (degrees, edge weights, gather, scatter-add, bias, the clamp) as host operations that are
  the reference's own, line for line. Over the extended reals the narrowing of the products' operands to bf16 is the
  identity and each region's 25 row blocks together are the product of the whole arrays, entry by entry the same sum the
  reference's `dot_general` is; so the two programs' results are one function of the arguments:
    out = layer₂( layer₁( x · W₁ ) · W₂ ),
  each layer gathering at the message sources, weighting, summing into the message targets and adding its bias.
  No precondition is used: the two sides are the same terms in the same order.

  Modules: the kernel program's run with its result array named (KernelRun); each region's result array as a whole-array
  product (Mm1, Mm2); the host stretches as the two layers (Pre, Keep, Between, KernelValue, over Layers); the reference's
  products as the same sums (Bridge); the reference's run and its stages (RefRun, RefRead).
-/
import proofs.«173708_j16329465660164_1_alg».proof.Defs
import proofs.«173708_j16329465660164_1_alg».proof.Proof.Gen.Kernel
import proofs.«173708_j16329465660164_1_alg».proof.Proof.Gen.Kernel.Skeleton
import proofs.«173708_j16329465660164_1_alg».proof.Proof.Gen.Kernel.Launch
import proofs.«173708_j16329465660164_1_alg».proof.Proof.Gen.Kernel.Points
import proofs.«173708_j16329465660164_1_alg».proof.Proof.Gen.Kernel.Frame
import proofs.«173708_j16329465660164_1_alg».proof.Proof.Gen.KernelIdeal
import proofs.«173708_j16329465660164_1_alg».proof.Proof.Gen.KernelIdeal.Skeleton
import proofs.«173708_j16329465660164_1_alg».proof.Proof.Gen.KernelIdeal.Launch
import proofs.«173708_j16329465660164_1_alg».proof.Proof.Gen.KernelIdeal.Points
import proofs.«173708_j16329465660164_1_alg».proof.Proof.Gen.KernelIdeal.Frame
import proofs.«173708_j16329465660164_1_alg».proof.Proof.Gen.ReferenceIdeal
import proofs.«173708_j16329465660164_1_alg».proof.Proof.Gen.Pre_finite_inputs
import proofs.«173708_j16329465660164_1_alg».proof.Proof.RefRun
import proofs.«173708_j16329465660164_1_alg».proof.Proof.RefRead
import proofs.«173708_j16329465660164_1_alg».proof.Proof.KernelRun
import proofs.«173708_j16329465660164_1_alg».proof.Proof.KernelValue
import proofs.«173708_j16329465660164_1_alg».proof.Proof.Layers
import proofs.«173708_j16329465660164_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel program. -/
theorem preserves : Cert.preserves_Kernel_KernelIdeal := trivial

/-- Both programs end with the result array at layer₂(layer₁(x · W₁) · W₂) of arguments that agree. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.RunOut.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v66_eq, Cert.Gcn.ref_eq, Cert.Gcn.dot1_eq, Cert.Gcn.dot2_eq, e0, e1, e2, e3, e4, e5]
  exact (Cert.KernelIdeal.Out.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
